-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x512 .f32) (main_arg1 : IVec S2x800000 32) (main_arg2 : FVec F S512x128 .f32) (main_arg3 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x512 : Shape := ⟨2, ![5000, 512]⟩
abbrev S5000x128 : Shape := ⟨2, ![5000, 128]⟩
abbrev S850000x128 : Shape := ⟨2, ![850000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 64
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x512, .bf16⟩
  | .hbm, ⟨45, _⟩ => ⟨S512x128, .bf16⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S50000x128, .f32⟩
  | .local _ .vmem, ⟨0, _⟩ => ⟨S5000x512, .bf16⟩
  | .local _ .vmem, ⟨1, _⟩ => ⟨S5000x512, .bf16⟩
  | .local _ .vmem, ⟨2, _⟩ => ⟨S512x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x128_S5000x128_1_0_0_1_n_n_wf : DotDims.WF S5000x512 S512x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .bf16 = 32 ∨ (Rect.block (s := S50000x512) S5000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v30) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 79
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x128, .f32⟩
  | .hbm, ⟨3, _⟩ => ⟨S128, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_cst_0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_cst_1 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_v47 : Ref sig .tc := ⟨.hbm, 78, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The mathematics of the graph layer, as functions of its inputs.

  A graph on 50000 nodes is given by 800000 directed edges `(s, d)` (row 0 of the edge array the sources, row 1 the
  targets), to which one self loop per node is appended: 850000 edges in all. With `deg v` the number of edges whose
  target is `v` (a sum of ones scattered to the targets) and `dinv v = deg v ^ (-1/2)` where `deg v > 0`, else `0`,
  every edge carries the weight `dinv s · dinv d`. The layer maps node features `h` (one row of 128 numbers per node)
  to `agg v = ∑_{edges (s, d), d = v} h s · dinv s · dinv d` — a gather of the sources' rows, scaled, scattered with
  addition to the targets — and ends with a bias and a row-wise log-softmax: with `z = agg v + b`,
  `out v j = (z j - max z) - log ∑_k exp (z k - max z)`.

  Both programs compute the edge weights, the gather and the scatter by the same operations; they are named here once
  so that neither side ever has to open them. A negative node number is wrapped by adding 50000, as indexing does.
-/
import proofs.«144927_j52501680226427_1_alg».proof.Proof.Gen.KernelIdeal
import Idealize.ShloMosaic.PureOps.Ideal
import Idealize.ShloMosaic.Lib.ValueIdx

noncomputable section

namespace Cert.KernelIdeal.Spec

open Cert.KernelIdeal Cert.KernelIdeal.Gen Idealize.ShloMosaic

variable {F : FTy → Type} [FloatOps F]

/-- Row `r` of the edge array followed by the node numbers `0 … 49999` (the self loops). -/
def srcIdx (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

def dstIdx (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative node number wrapped once: `v + 50000` where `v < 0`. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The number of edges into each node: ones scattered with addition to the targets. -/
def deg (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dstIdx (F := F) ei)) (broadcastInDim S850000 ![] bcast_S_S850000 (constant S_ .f32 0x3F800000#32))

/-- `deg ^ (-1/2)` where the degree is positive, `0` elsewhere. -/
def dinv (ei : (⟨S2x800000, .i32⟩ : BufTy).Contents (Elt F)) : (⟨S50000, .f32⟩ : BufTy).Contents (Elt F) :=
  select (cmpf (F := F) .ogt (deg (F := F) ei) (broadcastInDim S50000 ![] bcast_S_S50000 (constant S_ .f32 0x00000000#32))) (Host.rsqrt (deg (F := F) ei)) (broadcastInDim S50000 ![] bcast_S_S50000 (id (constant S_ .f32 0x00000000#32)))

/-- Each edge's weight: the product of its two ends' `dinv`. -/
def norm (ei : (⟨S2x800000, .i32⟩ : BufTy).Contents (Elt F)) : (⟨S850000, .f32⟩ : BufTy).Contents (Elt F) :=
  mulf (Host.gather gather_S50000_S850000x1_S850000_n_0_n_n_0_1_1 (dinv (F := F) ei) (broadcastInDim S850000x1 ![0] bcast_S850000_S850000x1_0 (wrap (F := F) (srcIdx (F := F) ei))))
    (Host.gather gather_S50000_S850000x1_S850000_n_0_n_n_0_1_1 (dinv (F := F) ei) (broadcastInDim S850000x1 ![0] bcast_S850000_S850000x1_0 (wrap (F := F) (dstIdx (F := F) ei))))

/-- The aggregation: each edge's source row of `h`, scaled by the edge's weight, added into its target's row. -/
def agg (h : (⟨S50000x128, .f32⟩ : BufTy).Contents (Elt F)) (ei : (⟨S2x800000, .i32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dstIdx (F := F) ei))
    (mulf (Host.gather gather_S50000x128_S850000x1_S850000x128_1_0_n_n_0_1_1128 h (broadcastInDim S850000x1 ![0] bcast_S850000_S850000x1_0 (wrap (F := F) (srcIdx (F := F) ei))))
      (broadcastInDim S850000x128 ![0, 1] bcast_S850000x1_S850000x128_0_1 (broadcastInDim S850000x1 ![0] bcast_S850000_S850000x1_0 (norm (F := F) ei))))

end Cert.KernelIdeal.Spec

end
-- ==== Proof.HostChain.lean ====
/-
  What the host operations around the two kernel regions compute, buffer by buffer.

  Before the first region the program builds, from the edge array alone, the two index lists (sources and targets
  with the self loops appended) and every edge's weight, and rounds the two matrix operands to the narrower format
  (the identity on exact numbers). Between the regions it gathers the first region's result at the sources, scales
  by the weights and scatters to the targets: the aggregation of the first region's result. Each buffer's contents
  at a region's entry is read off the fold of the operations over the launch memory, one stretch at a time.
-/
import proofs.«144927_j52501680226427_1_alg».proof.Proof.Gen.KernelIdeal.Frame
import proofs.«144927_j52501680226427_1_alg».proof.Proof.Spec
import Idealize.ShloMosaic.Lib.StableHlo.Run

set_option maxRecDepth 16384

noncomputable section

namespace Cert.KernelIdeal.HostChain

open Cert.KernelIdeal Cert.KernelIdeal.Gen Cert.KernelIdeal.Spec
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch: the index lists and the degrees -/

set_option maxHeartbeats 2000000 in
theorem W1_v3 (c : Dev nD) : W1 m ρ c (Proc.devRef .tc main_v3) = srcIdx (F := F) (m ((c.tc : Thread nD τ).loc main_arg1)) := by
  show StableHlo.after hostOps0 (W0 m ρ c) (Proc.devRef .tc main_v3) = _
  after_results
  first | done | rfl

set_option maxHeartbeats 2000000 in
theorem W1_v6 (c : Dev nD) : W1 m ρ c (Proc.devRef .tc main_v6) = dstIdx (F := F) (m ((c.tc : Thread nD τ).loc main_arg1)) := by
  show StableHlo.after hostOps0 (W0 m ρ c) (Proc.devRef .tc main_v6) = _
  after_results
  first | done | rfl

set_option maxHeartbeats 2000000 in
theorem W1_v10 (c : Dev nD) : W1 m ρ c (Proc.devRef .tc main_v10) = deg (F := F) (m ((c.tc : Thread nD τ).loc main_arg1)) := by
  show StableHlo.after hostOps0 (W0 m ρ c) (Proc.devRef .tc main_v10) = _
  after_results
  first | done | rfl

/-! ## After the selection: the inverse square roots of the degrees -/

set_option maxHeartbeats 2000000 in
theorem W2_v14 (c : Dev nD) : W2 m ρ c (Proc.devRef .tc main_v14) = dinv (F := F) (m ((c.tc : Thread nD τ).loc main_arg1)) := by
  show StableHlo.after hostOps0_1 (StableHlo.after hostOps0 (W0 m ρ c)) (Proc.devRef .tc main_v14) = _
  after_results
  simp only [TRef.ofBuf, TRef.toBuf, cast_eq]
  first | done | rfl

set_option maxHeartbeats 2000000 in
theorem W2_v3 (c : Dev nD) : W2 m ρ c (Proc.devRef .tc main_v3) = srcIdx (F := F) (m ((c.tc : Thread nD τ).loc main_arg1)) := by
  refine Eq.trans ?_ (W1_v3 m ρ c)
  show StableHlo.after hostOps0_1 (W1 m ρ c) (Proc.devRef .tc main_v3) = _
  after_results
  first | done | rfl

set_option maxHeartbeats 2000000 in
theorem W2_v6 (c : Dev nD) : W2 m ρ c (Proc.devRef .tc main_v6) = dstIdx (F := F) (m ((c.tc : Thread nD τ).loc main_arg1)) := by
  refine Eq.trans ?_ (W1_v6 m ρ c)
  show StableHlo.after hostOps0_1 (W1 m ρ c) (Proc.devRef .tc main_v6) = _
  after_results
  first | done | rfl

/-! ## At the first region's entry -/

set_option maxHeartbeats 2000000 in
/-- The sources' list. -/
theorem W3_v3 (c : Dev nD) : W3 m ρ c (Proc.devRef .tc main_v3) = srcIdx (F := F) (m ((c.tc : Thread nD τ).loc main_arg1)) := by
  refine Eq.trans ?_ (W2_v3 m ρ c)
  show StableHlo.after hostOps0_2 (W2 m ρ c) (Proc.devRef .tc main_v3) = _
  after_results
  first | done | rfl

set_option maxHeartbeats 2000000 in
/-- The targets' list. -/
theorem W3_v6 (c : Dev nD) : W3 m ρ c (Proc.devRef .tc main_v6) = dstIdx (F := F) (m ((c.tc : Thread nD τ).loc main_arg1)) := by
  refine Eq.trans ?_ (W2_v6 m ρ c)
  show StableHlo.after hostOps0_2 (W2 m ρ c) (Proc.devRef .tc main_v6) = _
  after_results
  first | done | rfl

set_option maxHeartbeats 2000000 in
/-- The matrix operands of the first region: the arguments rounded to the narrower format. -/
theorem W3_v30 (c : Dev nD) : W3 m ρ c (Proc.devRef .tc main_v30) = truncf .bf16 (m ((c.tc : Thread nD τ).loc main_arg0)) bitsLt_bf16_f32 := by
  show StableHlo.after hostOps0_2 (StableHlo.after hostOps0_1 (StableHlo.after hostOps0 (W0 m ρ c))) (Proc.devRef .tc main_v30) = _
  after_results
  first | done | rfl

set_option maxHeartbeats 2000000 in
theorem W3_v31 (c : Dev nD) : W3 m ρ c (Proc.devRef .tc main_v31) = truncf .bf16 (m ((c.tc : Thread nD τ).loc main_arg2)) bitsLt_bf16_f32 := by
  show StableHlo.after hostOps0_2 (StableHlo.after hostOps0_1 (StableHlo.after hostOps0 (W0 m ρ c))) (Proc.devRef .tc main_v31) = _
  after_results
  first | done | rfl

set_option maxHeartbeats 4000000 in
/-- The edges' weights. -/
theorem W3_v29 (c : Dev nD) : W3 m ρ c (Proc.devRef .tc main_v29) = norm (F := F) (m ((c.tc : Thread nD τ).loc main_arg1)) := by
  have h14 := W2_v14 m ρ c
  have h3 := W2_v3 m ρ c
  have h6 := W2_v6 m ρ c
  show StableHlo.after hostOps0_2 (W2 m ρ c) (Proc.devRef .tc main_v29) = _
  generalize W2 m ρ c = V2 at h14 h3 h6 ⊢
  after_results
  rw [h14, h3, h6]
  first | done | rfl

set_option maxHeartbeats 2000000 in
/-- The bias, untouched by every host operation before the first region. -/
theorem W3_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results
  first | done | rfl

/-! ## At the second region's entry -/

set_option maxHeartbeats 4000000 in
/-- The second region's first operand: the aggregation of the first region's result over the edges. -/
theorem W5_v45 (c : Dev nD) : W5 m ρ c (Proc.devRef .tc main_v45)
    = agg (F := F) (W4 m ρ c (Proc.devRef .tc main_v32)) (m ((c.tc : Thread nD τ).loc main_arg1)) := by
  show StableHlo.after hostOps1 (W4 m ρ c) (Proc.devRef .tc main_v45) = _
  after_results
  rw [W4_of_ne m ρ c main_v6 (by decide), W4_of_ne m ρ c main_v3 (by decide), W4_of_ne m ρ c main_v29 (by decide),
    W3_v6, W3_v3, W3_v29]
  first | done | rfl

set_option maxHeartbeats 2000000 in
/-- The bias reaches the second region as launched. -/
theorem W5_arg3 (c : Dev nD) : W5 m ρ c (Proc.devRef .tc main_arg3) = m ((c.tc : Thread nD τ).loc main_arg3) := by
  refine Eq.trans ?_ ((W4_of_ne m ρ c main_arg3 (by decide)).trans (W3_arg3 m ρ c))
  show StableHlo.after hostOps1 (W4 m ρ c) (Proc.devRef .tc main_arg3) = _
  after_results
  first | done | rfl

end Cert.KernelIdeal.HostChain

end
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.Region0.lean ====
/-
  The first region: a 50000 × 512 by 512 × 128 matrix product computed ten row blocks at a time.

  Point `t` of the grid reads rows `5000 t … 5000 t + 4999` of the left operand and the whole right operand, and
  writes the block's product into the same rows of the result. Entry `(p, j)` of a block's product is
  `∑_k x (5000 t + p, k) · w (k, j)`: the whole product's entry at row `5000 t + p`. The ten blocks tile the
  result, so after the region the result array is the whole product of the arrays the region found.
-/
import proofs.«144927_j52501680226427_1_alg».proof.Proof.Gen.KernelIdeal.Frame
import proofs.«144927_j52501680226427_1_alg».proof.Proof.LibPlainProduct
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-- The whole product, entry by entry. -/
def prod (x : FVec Ideal S50000x512 .bf16) (w : FVec Ideal S512x128 .bf16) : FVec Ideal S50000x128 .f32 :=
  fun i => ∑ k : Fin 512, x (ix2 (i 0) k) * w (ix2 k (i 1))

theorem prod_apply (x : FVec Ideal S50000x512 .bf16) (w : FVec Ideal S512x128 .bf16) (r : Fin 50000) (j : Fin 128) :
    prod x w (ix2 r j) = ∑ k : Fin 512, x (ix2 r k) * w (ix2 k j) := rfl

theorem hz : (![0, 0] : Fin 2 → Nat) = fun _ => 0 := funext fun a => by fin_cases a <;> rfl

/-- The printed record of the block product is the plain one: contract the left operand's columns with the right
    operand's rows. -/
theorem dot_eq : dot_S5000x512_S512x128_S5000x128_1_0_0_1_n_n = DotDims.plain 5000 512 128 := rfl

/-- The body's one stored value at `(p, j)`: the sum over `k` of the loaded blocks' products. -/
theorem pay_apply (x0 : Vec Ideal S5000x512 .bf16) (x1 : Vec Ideal S512x128 .bf16) (p : Fin 5000) (j : Fin 128) :
    k0_pay1 x0 x1 (ix2 p j) = ∑ k : Fin 512, x0 (ix2 p k) * x1 (ix2 k j) := by
  unfold k0_pay1
  rw [shapeCast_self, shapeCast_self, dot_eq]
  exact Cert.LibPlainProduct.matmul_zero_plain_apply x0 x1 none p j

variable (V : (c : Dev nD) → (b : Ref sig .tc) → Buf (Elt Ideal) ((c : Thread nD τ).loc b))

/-- Where the three windows sit at point `t`: the left operand's and the result's block at row block `t`, the right
    operand whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product of the arrays the region found. -/
theorem flushed_eq (c : Dev nD) (t : Fin cfg0.N) :
    (dat0 V c).flushed 2 t = ((cfg0.win 2).blk t).view.read (Elt Ideal) (prod (V c main_v30) (V c main_v31)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  have ht : t.val < 10 := lt_of_lt_of_eq t.isLt (N_0 : cfg0.N = 10)
  show k0_pay1 (iblk0 V c 0 t) (iblk0 V c 1 t) (ix2 p q) = prod (V c main_v30) (V c main_v31) (((cfg0.win 2).blk t).view.emb (ix2 p q))
  have hemb : ((cfg0.win 2).blk t).view.emb (ix2 p q) = ix2 (⟨5000 * t.val + p.val, by omega⟩ : Fin 50000) q := by
    funext a; apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  rw [hemb, prod_apply]
  refine (pay_apply _ _ p q).trans (Finset.sum_congr rfl fun k _ => ?_)
  have h0 : (iblk0 V c 0 t : Vec Ideal S5000x512 .bf16) (ix2 p k) = (V c main_v30 : FVec Ideal S50000x512 .bf16) (ix2 (⟨5000 * t.val + p.val, by omega⟩ : Fin 50000) k) := by
    show V c main_v30 (((cfg0.win 0).blk t).view.emb (ix2 p k)) = _
    refine congrArg (V c main_v30) (funext fun a => Fin.ext ?_)
    match a with
    | ⟨0, _⟩ => show win0_0.index t (0 : Fin 2) * 5000 + 1 * p.val = 5000 * t.val + p.val; rw [e0]; omega
    | ⟨1, _⟩ => show win0_0.index t (1 : Fin 2) * 512 + 1 * k.val = k.val; rw [e1]; omega
  have h1 : (iblk0 V c 1 t : Vec Ideal S512x128 .bf16) (ix2 k q) = (V c main_v31 : FVec Ideal S512x128 .bf16) (ix2 k q) := by
    show V c main_v31 (((cfg0.win 1).blk t).view.emb (ix2 k q)) = _
    refine congrArg (V c main_v31) (funext fun a => Fin.ext ?_)
    match a with
    | ⟨0, _⟩ => show win0_1.index t (0 : Fin 2) * 512 + 1 * k.val = k.val; rw [e2]; omega
    | ⟨1, _⟩ => show win0_1.index t (1 : Fin 2) * 128 + 1 * q.val = q.val; rw [e3]; omega
  rw [h0, h1]

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row of the result lies in the block of the point numbered by its row block. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) (N_0 : cfg0.N = 10).symm⟩
  obtain ⟨e0, e1, e2, e3, e4, e5⟩ := idx_facts t
  refine ⟨t, flush0_2 t, ?_⟩
  rw [mem_blk]
  intro a
  have htv : t.val = (i 0).val / 5000 := rfl
  match a with
  | ⟨0, _⟩ => show win0_2.index t (0 : Fin 2) * 5000 ≤ (i 0).val ∧ (i 0).val < win0_2.index t (0 : Fin 2) * 5000 + 5000; rw [e4, htv]; omega
  | ⟨1, _⟩ => show win0_2.index t (1 : Fin 2) * 128 ≤ (i 1).val ∧ (i 1).val < win0_2.index t (1 : Fin 2) * 128 + 128; rw [e5]; omega

/-- THE RESULT ARRAY after the region: the whole product of the two operand arrays as the region found them. -/
theorem final (c : Dev nD) : (dat0 V c).arrAt 2 cfg0.N = prod (V c main_v30) (V c main_v31) :=
  (dat0 V c).arrAt_eq_of_cover 2 (prod (V c main_v30) (V c main_v31)) (fun t _ => flushed_eq V c t) cover

end Cert.KernelIdeal.Region0

end
-- ==== Proof.LibBroadcastCol.lean ====
/-
  A column broadcast over many columns, read at an index (the companion of the library's one-row form
  `ValueIdx.broadcastTo_1b_ab_apply`).
-/
import Idealize.ShloMosaic.Lib.Pipeline.Value
import Idealize.ShloMosaic.Lib.ValueIdx

namespace Idealize.ShloMosaic.ValueIdx

open Idealize.ShloMosaic

/-- An `[a, 1]` array broadcast to `[a, b]` reads, at `(p, c)`, the operand's one column at row `p`: the unit axis
    is read at `0` whatever `c` is, the other axis at the index's own coordinate. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RowSpec.lean ====
/-
  The log-softmax of one row of 128 extended reals, as both programs compute it: with `M` the running maximum of
  the row started from the format's `-∞` word, the entry `q` is `(z q - M) - log ∑_k exp (z k - M)`; and the
  whole result array: row `r` of `a` with the bias `b` added, through that function.
-/
import Idealize.ShloMosaic.PureOps.Ideal
import Idealize.ShloMosaic.Lib.ValueIdx

noncomputable section

open scoped BigOperators

namespace Cert.RowSpec

open Idealize.ShloMosaic Idealize.ShloMosaic.ValueIdx

/-- The maximum of a row, folded from the `-∞` word of the format. -/
def rowMax (z : Fin 128 → EReal) : EReal :=
  (Finset.univ : Finset (Fin 128)).fold max (Ideal.ofBits .f32 0xFF800000#32) z

/-- The log-softmax of a row, at entry `q`. -/
def lsm (z : Fin 128 → EReal) (q : Fin 128) : EReal :=
  (z q - rowMax z) - Ideal.log (∑ k : Fin 128, Ideal.exp (z k - rowMax z))

/-- The biased rows of an `n × 128` array, each through the log-softmax. -/
def lsmRows {n : ℕ} (a : (⟨2, ![n, 128]⟩ : Shape).Idx → EReal) (b : (⟨1, ![128]⟩ : Shape).Idx → EReal) :
    (⟨2, ![n, 128]⟩ : Shape).Idx → EReal :=
  fun i => lsm (fun k => a (ix2 (i 0) k) + b (ix1 k)) (i 1)

theorem lsmRows_apply {n : ℕ} (a : (⟨2, ![n, 128]⟩ : Shape).Idx → EReal) (b : (⟨1, ![128]⟩ : Shape).Idx → EReal)
    (p : Fin n) (q : Fin 128) : lsmRows a b (ix2 p q) = lsm (fun k => a (ix2 p k) + b (ix1 k)) q := rfl

end Cert.RowSpec

end
-- ==== Proof.Region1.lean ====
/-
  The second region: the bias added and a row-wise log-softmax, ten blocks of 5000 rows at a time.

  Point `t` of the grid reads rows `5000 t … 5000 t + 4999` of the aggregated array and the whole bias, and writes
  the same rows of the result. In a block, entry `(p, q)` depends on row `p` only: with `z k = a (p, k) + b k` and
  `M` the row's running maximum from `-∞`, it is `(z q - M) - log ∑_k exp (z k - M)`. So each block is the same rows
  of the whole array's row-wise log-softmax, and the ten blocks tile the result.
-/
import proofs.«144927_j52501680226427_1_alg».proof.Proof.Gen.KernelIdeal.Frame
import proofs.«144927_j52501680226427_1_alg».proof.Proof.LibBroadcastCol
import proofs.«144927_j52501680226427_1_alg».proof.Proof.RowSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Cert.RowSpec
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-! ## The body's operations read at an index -/

/-- The exponential and the logarithm of a vector are taken entry by entry. -/
theorem exp_apply {s : Shape} {φ : FTy} (u : FVec Ideal s φ) (i : s.Idx) : exp u i = Ideal.exp (u i) := rfl
theorem log_apply {s : Shape} {φ : FTy} (u : FVec Ideal s φ) (i : s.Idx) : log u i = Ideal.log (u i) := rfl

/-- An `[a]` array cast to the column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A maximum over the lanes of a `5000 × 128` vector, at row `p`: the running maximum of that row from the
    accumulator's value. -/
theorem laneMax_apply (src : FVec Ideal S5000x128 .f32) (h : S5000x128.Reduces [1] S5000) (hφ : FKind.Formats .f32)
    (hacc : (0xFF800000#32 : BitVec 32) = 0xFF800000#32) (p : Fin 5000) :
    multiReduction .maximumf [1] S5000 src 0xFF800000#32 h hφ hacc (ix1 p) = rowMax (fun k => src (ix2 p k)) := by
  refine (Ideal.multiReduction_maximumf_single src 0xFF800000#32 h hφ hacc (ix1 p)).trans ?_
  have hf : (src ∘ h.lift (ix1 p)) = fun k : Fin 128 => src (ix2 p k) :=
    funext fun k => congrArg src (funext fun a => Fin.ext (by
      match a with
      | ⟨0, _⟩ => rfl
      | ⟨1, _⟩ => rfl))
  rw [hf]
  rfl

/-- A sum over the lanes, at row `p`: the sum of that row. -/
theorem laneSum_apply (src : FVec Ideal S5000x128 .f32) (h : S5000x128.Reduces [1] S5000) (hφ : FKind.Formats .f32)
    (hacc : (0x00000000#32 : BitVec 32) = 0x00000000#32) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = _
  refine Finset.sum_congr rfl fun k _ => congrArg src (funext fun a => Fin.ext ?_)
  match a with
  | ⟨0, _⟩ => rfl
  | ⟨1, _⟩ => rfl

section Body

variable (A : FVec Ideal S5000x128 .f32) (h : S5000x128.Reduces [1] S5000) (hφ : FKind.Formats .f32)
  (hm : (0xFF800000#32 : BitVec 32) = 0xFF800000#32) (hs : (0x00000000#32 : BitVec 32) = 0x00000000#32)
  (hc : S5000.ShapeCasts S5000x1) (hb : S5000x1.Broadcasts S5000x128)

/-- The rows' maxima, as a column spread back over the lanes. -/
abbrev maxSpread : FVec Ideal S5000x128 .f32 :=
  broadcastTo S5000x128 (shapeCast S5000x1 (multiReduction .maximumf [1] S5000 A 0xFF800000#32 h hφ hm) hc) hb

/-- The rows shifted by their maxima. -/
abbrev shifted : FVec Ideal S5000x128 .f32 := subf A (maxSpread A h hφ hm hc hb)

/-- The logarithm of each shifted row's sum of exponentials, spread back over the lanes. -/
abbrev lseSpread : FVec Ideal S5000x128 .f32 :=
  broadcastTo S5000x128 (log (shapeCast S5000x1 (multiReduction .add [1] S5000 (exp (shifted A h hφ hm hc hb)) 0x00000000#32 h hφ hs) hc)) hb

theorem maxSpread_apply (p : Fin 5000) (k : Fin 128) :
    maxSpread A h hφ hm hc hb (ix2 p k) = rowMax (fun k => A (ix2 p k)) :=
  (broadcastTo_a1_ab_apply _ hb p k).trans ((shapeCast_a_a1_apply _ hc p 0).trans (laneMax_apply A h hφ hm p))

theorem shifted_apply (p : Fin 5000) (k : Fin 128) :
    shifted A h hφ hm hc hb (ix2 p k) = A (ix2 p k) - rowMax (fun k => A (ix2 p k)) :=
  congrArg (A (ix2 p k) - ·) (maxSpread_apply A h hφ hm hc hb p k)

theorem lseSpread_apply (p : Fin 5000) (q : Fin 128) :
    lseSpread A h hφ hm hs hc hb (ix2 p q)
      = Ideal.log (∑ k : Fin 128, Ideal.exp (A (ix2 p k) - rowMax (fun k => A (ix2 p k)))) :=
  (broadcastTo_a1_ab_apply _ hb p q).trans (congrArg Ideal.log ((shapeCast_a_a1_apply _ hc p 0).trans
    ((laneSum_apply _ h hφ hs p).trans (Finset.sum_congr rfl fun k _ =>
      congrArg Ideal.exp (shifted_apply A h hφ hm hc hb p k)))))

/-- The body's arithmetic on a block `A` of biased rows, at `(p, q)`: the log-softmax of row `p`, at `q`. -/
theorem body_apply (p : Fin 5000) (q : Fin 128) :
    subf (shifted A h hφ hm hc hb) (lseSpread A h hφ hm hs hc hb) (ix2 p q) = lsm (fun k => A (ix2 p k)) q :=
  (congrArg₂ (fun u v : EReal => u - v) (shifted_apply A h hφ hm hc hb p q) (lseSpread_apply A h hφ hm hs hc hb p q))

end Body

/-- The body's one stored value at `(p, q)`: the log-softmax of row `p` of the loaded block plus the bias, at `q`. -/
theorem pay_apply (x0 : FVec Ideal S5000x128 .f32) (x1 : FVec Ideal S128 .f32) (p : Fin 5000) (q : Fin 128) :
    k1_pay1 (F := Ideal) x0 x1 (ix2 p q) = lsm (fun k => x0 (ix2 p k) + x1 (ix1 k)) q := by
  have hrow : ∀ k : Fin 128, (addf (shapeCast S5000x128 x0 shapeCasts_S5000x128_S5000x128)
      (broadcastTo S5000x128 (shapeCast S1x128 x1 shapeCasts_S128_S1x128) broadcasts_S1x128_S5000x128) : FVec Ideal S5000x128 .f32) (ix2 p k)
        = x0 (ix2 p k) + x1 (ix1 k) := fun k => by
    rw [addf_apply, shapeCast_self, broadcastTo_1b_ab_apply, shapeCast_a_1a_apply]
  unfold k1_pay1
  exact (body_apply _ reduces_S5000x128_S5000 _ _ _ shapeCasts_S5000_S5000x1 broadcasts_S5000x1_S5000x128 p q).trans
    (congrArg (fun z => lsm z q) (funext hrow))

variable (V : (c : Dev nD) → (b : Ref sig .tc) → Buf (Elt Ideal) ((c : Thread nD τ).loc b))

/-! ## From the blocks to the array -/

/-- Where the three windows sit at point `t`: the operand's and the result's block at row block `t`, the bias whole. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- WHAT POINT `t` WRITES BACK is block `t` of the row-wise log-softmax of the arrays the region found. -/
theorem flushed_eq (c : Dev nD) (t : Fin cfg1.N) :
    (dat1 V c).flushed 2 t = ((cfg1.win 2).blk t).view.read (Elt Ideal) (lsmRows (n := 50000) (V c main_v45) (V c main_arg3)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128) hz1]
  obtain ⟨e0, e1, e2, e3, e4⟩ := idx_facts t
  funext j
  obtain ⟨p, q, rfl⟩ : ∃ (p : Fin 5000) (q : Fin 128), j = ix2 p q := ⟨j 0, j 1, eq_ix2 j⟩
  have ht : t.val < 10 := lt_of_lt_of_eq t.isLt (N_1 : cfg1.N = 10)
  show k1_pay1 (iblk1 V c 0 t) (iblk1 V c 1 t) (ix2 p q) = lsmRows (n := 50000) (V c main_v45) (V c main_arg3) (((cfg1.win 2).blk t).view.emb (ix2 p q))
  have hemb : ((cfg1.win 2).blk t).view.emb (ix2 p q) = ix2 (⟨5000 * t.val + p.val, by omega⟩ : Fin 50000) q := by
    funext a; apply Fin.ext
    match a with
    | ⟨0, _⟩ => show win1_2.index t (0 : Fin 2) * 5000 + 1 * p.val = 5000 * t.val + p.val; rw [e3]; omega
    | ⟨1, _⟩ => show win1_2.index t (1 : Fin 2) * 128 + 1 * q.val = q.val; rw [e4]; omega
  rw [hemb, lsmRows_apply]
  refine (pay_apply _ _ p q).trans (congrArg (fun z => lsm z q) (funext fun k => ?_))
  have h0 : iblk1 V c 0 t (ix2 p k) = V c main_v45 (ix2 (⟨5000 * t.val + p.val, by omega⟩ : Fin 50000) k) := by
    show V c main_v45 (((cfg1.win 0).blk t).view.emb (ix2 p k)) = _
    refine congrArg (V c main_v45) (funext fun a => Fin.ext ?_)
    match a with
    | ⟨0, _⟩ => show win1_0.index t (0 : Fin 2) * 5000 + 1 * p.val = 5000 * t.val + p.val; rw [e0]; omega
    | ⟨1, _⟩ => show win1_0.index t (1 : Fin 2) * 128 + 1 * k.val = k.val; rw [e1]; omega
  have h1 : iblk1 V c 1 t (ix1 k) = V c main_arg3 (ix1 k) := by
    show V c main_arg3 (((cfg1.win 1).blk t).view.emb (ix1 k)) = _
    refine congrArg (V c main_arg3) (funext fun a => Fin.ext ?_)
    match a with
    | ⟨0, _⟩ => show win1_1.index t (0 : Fin 1) * 128 + 1 * k.val = k.val; rw [e2]; omega
  exact congrArg₂ (fun u v : EReal => u + v) h0 h1

/-- An index of the result array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every row of the result lies in the block of the point numbered by its row block. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 5000, lt_of_lt_of_eq (by omega : (i 0).val / 5000 < 10) (N_1 : cfg1.N = 10).symm⟩
  obtain ⟨e0, e1, e2, e3, e4⟩ := idx_facts t
  refine ⟨t, flush1_2 t, ?_⟩
  rw [mem_blk]
  intro a
  have htv : t.val = (i 0).val / 5000 := rfl
  match a with
  | ⟨0, _⟩ => show win1_2.index t (0 : Fin 2) * 5000 ≤ (i 0).val ∧ (i 0).val < win1_2.index t (0 : Fin 2) * 5000 + 5000; rw [e3, htv]; omega
  | ⟨1, _⟩ => show win1_2.index t (1 : Fin 2) * 128 ≤ (i 1).val ∧ (i 1).val < win1_2.index t (1 : Fin 2) * 128 + 128; rw [e4]; omega

/-- THE RESULT ARRAY after the region: the row-wise log-softmax of the first operand's rows plus the bias, as the
    region found them. -/
theorem final (c : Dev nD) : (dat1 V c).arrAt 2 cfg1.N = lsmRows (n := 50000) (V c main_v45) (V c main_arg3) :=
  (dat1 V c).arrAt_eq_of_cover 2 (lsmRows (n := 50000) (V c main_v45) (V c main_arg3)) (fun t _ => flushed_eq V c t) cover

end Cert.KernelIdeal.Region1

end
-- ==== Proof.Layer.lean ====
/-
  The layer as one function of its four arguments, on the extended reals: the product of the node features and the
  weights, aggregated over the edges with the symmetric degree normalisation, the bias added, each row through the
  log-softmax. Both programs end at this function of their arguments.
-/
import proofs.«144927_j52501680226427_1_alg».proof.Proof.Spec
import proofs.«144927_j52501680226427_1_alg».proof.Proof.Region0
import proofs.«144927_j52501680226427_1_alg».proof.Proof.RowSpec

noncomputable section

namespace Cert.KernelIdeal.Whole

open Cert.KernelIdeal Cert.KernelIdeal.Gen Cert.RowSpec
open Idealize.ShloMosaic

/-- The layer: the product, aggregated over the edges, biased, each row through the log-softmax. -/
def layer (x : FVec Ideal S50000x512 .f32) (ei : (⟨S2x800000, .i32⟩ : BufTy).Contents (Elt Ideal))
    (w : FVec Ideal S512x128 .f32) (b : FVec Ideal S128 .f32) : FVec Ideal S50000x128 .f32 :=
  lsmRows (n := 50000) (Spec.agg (F := Ideal) (Region0.prod x w) ei) b

end Cert.KernelIdeal.Whole

end
-- ==== Proof.KernelValue.lean ====
/-
  The kernel program's result as one function of its four arguments, on the extended reals.

  The run of @main leaves in the result buffer what the second region's write-backs leave (the row-wise log-softmax of
  its first operand plus the bias); that operand is the aggregation, over the edges, of the first region's result;
  the first region's result is the whole product of its two operands; and those are the node features and the
  weights, rounding to a narrower format being the identity on exact numbers. Composed:
  `log_softmax (aggregate (x · W) + b)`.
-/
import proofs.«144927_j52501680226427_1_alg».proof.Proof.KernelRun
import proofs.«144927_j52501680226427_1_alg».proof.Proof.HostChain
import proofs.«144927_j52501680226427_1_alg».proof.Proof.Region0
import proofs.«144927_j52501680226427_1_alg».proof.Proof.Region1
import proofs.«144927_j52501680226427_1_alg».proof.Proof.Layer

set_option maxRecDepth 16384

noncomputable section

namespace Cert.KernelIdeal.Whole

open Cert.KernelIdeal Cert.KernelIdeal.Gen Cert.RowSpec
open Idealize.ShloMosaic Idealize.ShloMosaic.TcCoe Idealize.SL.Sem Idealize.ShloMosaic.ValueIdx

variable (m : (ℓ : Loc nD τ sig) → Buf (Elt Ideal) ℓ) (ρ : Dev nD → PrngReg)

/-- Rounding an exact array to a narrower format leaves it as it is. -/
theorem truncf_ideal {s : Shape} {φ ψ : FTy} (a : FVec Ideal s φ) (h : ψ.bits < φ.bits) : (truncf ψ a h : FVec Ideal s ψ) = a := rfl

/-- What the fold through @main's segments leaves in the result buffer: the layer of the launch contents. -/
theorem result_eq (c : Dev nD) : W6 m ρ c (Proc.devRef .tc main_v46)
    = layer (m ((c.tc : Thread nD τ).loc main_arg0)) (m ((c.tc : Thread nD τ).loc main_arg1))
        (m ((c.tc : Thread nD τ).loc main_arg2)) (m ((c.tc : Thread nD τ).loc main_arg3)) := by
  have h6 : W6 m ρ c (Proc.devRef .tc main_v46) = (dat1 (V5 m ρ) c).arrAt 2 cfg1.N := W6_arr m ρ c 2
  have ha : V5 m ρ c main_v45 = Spec.agg (F := Ideal) (W4 m ρ c (Proc.devRef .tc main_v32)) (m ((c.tc : Thread nD τ).loc main_arg1)) :=
    HostChain.W5_v45 m ρ c
  have hb : V5 m ρ c main_arg3 = m ((c.tc : Thread nD τ).loc main_arg3) := HostChain.W5_arg3 m ρ c
  have h4 : W4 m ρ c (Proc.devRef .tc main_v32) = (dat0 (V3 m ρ) c).arrAt 2 cfg0.N := W4_arr m ρ c 2
  have hx : V3 m ρ c main_v30 = m ((c.tc : Thread nD τ).loc main_arg0) := (HostChain.W3_v30 m ρ c).trans (truncf_ideal _ _)
  have hw : V3 m ρ c main_v31 = m ((c.tc : Thread nD τ).loc main_arg2) := (HostChain.W3_v31 m ρ c).trans (truncf_ideal _ _)
  rw [h6, Region1.final (V5 m ρ) c, ha, hb, h4, Region0.final (V3 m ρ) c, hx, hw]
  rfl

/-- The run of @main, read: the result at the layer of the arguments, the arguments as launched. -/
theorem run : θ_run defs (onTc (τ := τ) (main (F := Ideal))) ⟨m, fun _ => 0, ρ⟩ (fun r => ∀ c : Dev nD,
      r.2.mem ((c.tc : Thread nD τ).loc main_v46)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (ValueRun.run_main m ρ)

end Cert.KernelIdeal.Whole

end
-- ==== Proof.RefRun.lean ====
/-
  The reference program's run, read back.

  The reference is a straight line of host operations. Its run leaves each buffer at the fold of the operations'
  results over the launch memory; the fold is read four consecutive stretches at a time — the index lists and the
  inverse square roots of the degrees; the edges' weights; the product, its gather, the scaling and the scatter; the
  bias and the log-softmax — each stretch from what the one before left in the few buffers it reads, and the result
  is the last operation's value as a function of the four arguments.
-/
import proofs.«144927_j52501680226427_1_alg».proof.Proof.RefRead
import Idealize.ShloMosaic.Lib.StableHlo.Run
import Idealize.ShloMosaic.Lib.Pipeline.Frame

set_option maxRecDepth 16384

noncomputable section

namespace Cert.ReferenceIdeal.HandRun

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

section Stretches

variable (x0 : (⟨S50000x512, .f32⟩ : BufTy).Contents (Elt F)) (x1 : (⟨S2x800000, .i32⟩ : BufTy).Contents (Elt F))
  (x2 : (⟨S512x128, .f32⟩ : BufTy).Contents (Elt F)) (x3 : (⟨S128, .f32⟩ : BufTy).Contents (Elt F))

/-! ## The first stretch -/

set_option maxHeartbeats 2000000 in
theorem A_v3 (V : Valuation τ sig (Elt F)) (h1 : V (Proc.devRef .tc main_arg1) = x1) :
    after opsA V (Proc.devRef .tc main_v3) = val_main_v3 (F := F) x1 := by
  after_results
  rw [h1]
  first | done | rfl

set_option maxHeartbeats 2000000 in
theorem A_v6 (V : Valuation τ sig (Elt F)) (h1 : V (Proc.devRef .tc main_arg1) = x1) :
    after opsA V (Proc.devRef .tc main_v6) = val_main_v6 (F := F) x1 := by
  after_results
  rw [h1]
  first | done | rfl

set_option maxHeartbeats 4000000 in
theorem A_v14 (V : Valuation τ sig (Elt F)) (h1 : V (Proc.devRef .tc main_arg1) = x1) :
    after opsA V (Proc.devRef .tc main_v14) = val_main_v14 (F := F) x1 := by
  after_results
  simp only [TRef.ofBuf, TRef.toBuf, cast_eq]
  rw [h1]
  first | done | rfl

set_option maxHeartbeats 2000000 in
theorem A_arg0 (V : Valuation τ sig (Elt F)) : after opsA V (Proc.devRef .tc main_arg0) = V (Proc.devRef .tc main_arg0) := by
  after_results
  first | done | rfl

set_option maxHeartbeats 2000000 in
theorem A_arg2 (V : Valuation τ sig (Elt F)) : after opsA V (Proc.devRef .tc main_arg2) = V (Proc.devRef .tc main_arg2) := by
  after_results
  first | done | rfl

set_option maxHeartbeats 2000000 in
theorem A_arg3 (V : Valuation τ sig (Elt F)) : after opsA V (Proc.devRef .tc main_arg3) = V (Proc.devRef .tc main_arg3) := by
  after_results
  first | done | rfl

/-! ## The second stretch -/

set_option maxHeartbeats 4000000 in
theorem B_v29 (V : Valuation τ sig (Elt F)) (h3 : V (Proc.devRef .tc main_v3) = val_main_v3 (F := F) x1)
    (h6 : V (Proc.devRef .tc main_v6) = val_main_v6 (F := F) x1) (h14 : V (Proc.devRef .tc main_v14) = val_main_v14 (F := F) x1) :
    after opsB V (Proc.devRef .tc main_v29) = val_main_v29 (F := F) x1 := by
  after_results
  rw [h3, h6, h14]
  first | done | rfl

set_option maxHeartbeats 2000000 in
theorem B_v3 (V : Valuation τ sig (Elt F)) : after opsB V (Proc.devRef .tc main_v3) = V (Proc.devRef .tc main_v3) := by
  after_results
  first | done | rfl

set_option maxHeartbeats 2000000 in
theorem B_v6 (V : Valuation τ sig (Elt F)) : after opsB V (Proc.devRef .tc main_v6) = V (Proc.devRef .tc main_v6) := by
  after_results
  first | done | rfl

set_option maxHeartbeats 2000000 in
theorem B_arg0 (V : Valuation τ sig (Elt F)) : after opsB V (Proc.devRef .tc main_arg0) = V (Proc.devRef .tc main_arg0) := by
  after_results
  first | done | rfl

set_option maxHeartbeats 2000000 in
theorem B_arg2 (V : Valuation τ sig (Elt F)) : after opsB V (Proc.devRef .tc main_arg2) = V (Proc.devRef .tc main_arg2) := by
  after_results
  first | done | rfl

set_option maxHeartbeats 2000000 in
theorem B_arg3 (V : Valuation τ sig (Elt F)) : after opsB V (Proc.devRef .tc main_arg3) = V (Proc.devRef .tc main_arg3) := by
  after_results
  first | done | rfl

/-! ## The third stretch -/

set_option maxHeartbeats 4000000 in
theorem C_v43 (V : Valuation τ sig (Elt F)) (h3 : V (Proc.devRef .tc main_v3) = val_main_v3 (F := F) x1)
    (h6 : V (Proc.devRef .tc main_v6) = val_main_v6 (F := F) x1) (h29 : V (Proc.devRef .tc main_v29) = val_main_v29 (F := F) x1)
    (h0 : V (Proc.devRef .tc main_arg0) = x0) (h2 : V (Proc.devRef .tc main_arg2) = x2) :
    after opsC V (Proc.devRef .tc main_v43) = val_main_v43 (F := F) x0 x1 x2 := by
  after_results
  rw [h3, h6, h29, h0, h2]
  first | done | rfl

set_option maxHeartbeats 2000000 in
theorem C_arg3 (V : Valuation τ sig (Elt F)) : after opsC V (Proc.devRef .tc main_arg3) = V (Proc.devRef .tc main_arg3) := by
  after_results
  first | done | rfl

/-! ## The last stretch -/

/-- A value carried to a buffer's own type and back is the value. -/
theorem ofBuf_toBuf {T : BufTy} (x : TRef sig T) (v : T.Contents (Elt F)) : x.ofBuf (x.toBuf v) = v := by
  obtain ⟨r, h, hd, hu⟩ := x
  subst h
  rfl

/-- At a buffer whose type is the value's own, the carrying is the identity. -/
theorem toBuf_v47 (v : (⟨S50000x128, .f32⟩ : BufTy).Contents (Elt F)) :
    (TRef.of (T := ⟨S50000x128, .f32⟩) main_v47).toBuf v = v := rfl

theorem ofBuf_v46 (v : (⟨S50000x128, .f32⟩ : BufTy).Contents (Elt F)) :
    (TRef.of (T := ⟨S50000x128, .f32⟩) main_v46).ofBuf v = v := rfl

set_option maxHeartbeats 4000000 in
theorem D_v47 (V : Valuation τ sig (Elt F)) (h43 : V (Proc.devRef .tc main_v43) = val_main_v43 (F := F) x0 x1 x2)
    (h3' : V (Proc.devRef .tc main_arg3) = x3) :
    after opsD V (Proc.devRef .tc main_v47) = val_main_v47 (F := F) x0 x1 x2 x3 := by
  after_results
  rw [h43, h3']
  repeat rw [ofBuf_toBuf]
  rw [ofBuf_v46, toBuf_v47]
  rfl

end Stretches

variable (m : (ℓ : Loc nD τ sig) → Buf (Elt F) ℓ)

/-- The fold of the whole list at the result buffer: the last operation's value of the four arguments. -/
theorem after_v47 (c : Dev nD) : after (ops (F := F)) (launchContents m c) (Proc.devRef .tc main_v47)
    = val_main_v47 (F := F) (m ((c.tc : Thread nD τ).loc main_arg0)) (m ((c.tc : Thread nD τ).loc main_arg1)) (m ((c.tc : Thread nD τ).loc main_arg2)) (m ((c.tc : Thread nD τ).loc main_arg3)) := by
  rw [ops_eq, StableHlo.after_append, StableHlo.after_append, StableHlo.after_append]
  have a1 : launchContents m c (Proc.devRef .tc main_arg1) = (m ((c.tc : Thread nD τ).loc main_arg1)) := rfl
  have a0 : launchContents m c (Proc.devRef .tc main_arg0) = (m ((c.tc : Thread nD τ).loc main_arg0)) := rfl
  have a2 : launchContents m c (Proc.devRef .tc main_arg2) = (m ((c.tc : Thread nD τ).loc main_arg2)) := rfl
  have a3 : launchContents m c (Proc.devRef .tc main_arg3) = (m ((c.tc : Thread nD τ).loc main_arg3)) := rfl
  refine D_v47 _ _ _ _ _ (C_v43 _ _ _ _ ((B_v3 _).trans (A_v3 _ _ a1)) ((B_v6 _).trans (A_v6 _ _ a1))
      (B_v29 _ _ (A_v3 _ _ a1) (A_v6 _ _ a1) (A_v14 _ _ a1))
      ((B_arg0 _).trans ((A_arg0 _).trans a0)) ((B_arg2 _).trans ((A_arg2 _).trans a2)))
    ((C_arg3 _).trans ((B_arg3 _).trans ((A_arg3 _).trans a3)))

set_option maxRecDepth 8192 in
set_option maxHeartbeats 30000000 in
/-- On every device, from any memory with zero counters: every weakly fair execution of @main terminates with the
    result at the last operation's value of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v47) = val_main_v47 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (after_v47 m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.HandRun

end
-- ==== Proof.RefValue.lean ====
/-
  The reference's result is the layer of its arguments.

  The reference computes the edges' weights, the gather, the scaling and the scatter by the very operations the
  kernel program applies around its two regions (the same functions, named once); its product is the whole matrix
  product, entry `(r, j)` the sum over `k` of `x (r, k) · W (k, j)`; and its closing operations are the row-wise
  log-softmax of the biased rows: the maximum of a row folded from `-∞` (joined once more with `-∞`, which changes
  nothing), the row shifted by it, the sum of the exponentials started from zero, its logarithm subtracted.
-/
import proofs.«144927_j52501680226427_1_alg».proof.Proof.RefRead
import proofs.«144927_j52501680226427_1_alg».proof.Proof.Layer
import proofs.«144927_j52501680226427_1_alg».proof.Proof.LibPlainProduct
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP Cert.RowSpec
open Idealize.ShloMosaic Idealize.ShloMosaic.ValueIdx

/-! ## The shared host operations: the reference's stages are the named functions -/

section Shared

variable {F : FTy → Type} [FloatOps F]
variable (x0 : (⟨S50000x512, .f32⟩ : BufTy).Contents (Elt F)) (x1 : (⟨S2x800000, .i32⟩ : BufTy).Contents (Elt F))
  (x2 : (⟨S512x128, .f32⟩ : BufTy).Contents (Elt F))

theorem v3_eq : val_main_v3 (F := F) x1 = Cert.KernelIdeal.Spec.srcIdx (F := F) x1 := rfl
theorem v6_eq : val_main_v6 (F := F) x1 = Cert.KernelIdeal.Spec.dstIdx (F := F) x1 := rfl
theorem v19_eq : val_main_v19 (F := F) x1 = Cert.KernelIdeal.Spec.wrap (F := F) (val_main_v3 (F := F) x1) := rfl
theorem v26_eq : val_main_v26 (F := F) x1 = Cert.KernelIdeal.Spec.wrap (F := F) (val_main_v6 (F := F) x1) := rfl
theorem v35_eq : val_main_v35 (F := F) x1 = Cert.KernelIdeal.Spec.wrap (F := F) (val_main_v3 (F := F) x1) := rfl

theorem v10_eq : val_main_v10 (F := F) x1 = Cert.KernelIdeal.Spec.deg (F := F) x1 := by
  unfold val_main_v10 val_main_v9
  rw [v6_eq]
  rfl

theorem v14_eq : val_main_v14 (F := F) x1 = Cert.KernelIdeal.Spec.dinv (F := F) x1 := by
  unfold val_main_v14 val_main_v12 val_main_v13
  rw [v10_eq]
  rfl

theorem v29_eq : val_main_v29 (F := F) x1 = Cert.KernelIdeal.Spec.norm (F := F) x1 := by
  unfold val_main_v29 val_main_v21 val_main_v28 val_main_v20 val_main_v27
  rw [v14_eq, v19_eq, v26_eq, v3_eq, v6_eq]
  rfl

/-- The scatter of the scaled gather is the aggregation of the product. -/
theorem v43_eq : val_main_v43 (F := F) x0 x1 x2 = Cert.KernelIdeal.Spec.agg (F := F) (val_main_v30 (F := F) x0 x2) x1 := by
  unfold val_main_v43 val_main_v42 val_main_v40 val_main_v37 val_main_v36 val_main_v39 val_main_v38
  rw [v6_eq, v35_eq, v3_eq, v29_eq]
  rfl

end Shared

/-! ## The product -/

theorem dot_eq : dot_S50000x512_S512x128_S50000x128_1_0_0_1_n_n = DotDims.plain 50000 512 128 := rfl

theorem v30_eq (x0 : FVec Ideal S50000x512 .f32) (x2 : FVec Ideal S512x128 .f32) :
    val_main_v30 (F := Ideal) x0 x2 = Cert.KernelIdeal.Region0.prod x0 x2 := by
  funext i
  obtain ⟨r, j, rfl⟩ : ∃ (r : Fin 50000) (j : Fin 128), i = ix2 r j := ⟨i 0, i 1, eq_ix2 i⟩
  rw [Cert.KernelIdeal.Region0.prod_apply]
  unfold val_main_v30
  simp only [Host.dotGeneral]
  rw [dot_eq]
  exact Cert.LibPlainProduct.dotGeneral_plain_apply x0 x2 none _ r j

/-! ## The closing operations read at an index -/

theorem bid_col_apply {α : Type} (v : S50000x1.Idx → α) (r : Fin 50000) (q : Fin 128) :
    broadcastInDim S50000x128 ![0, 1] bcast_S50000x1_S50000x128_0_1 v (ix2 r q) = v (ix2 r (0 : Fin 1)) :=
  broadcastInDim_apply _ _ v (ix2 r q) (ix2 r (0 : Fin 1)) fun a => by
    match a with
    | ⟨0, _⟩ => show r.val = if (50000 : ℕ) = 1 then 0 else r.val; rw [if_neg (by decide)]
    | ⟨1, _⟩ => show 0 = if (1 : ℕ) = 1 then 0 else q.val; rw [if_pos rfl]

theorem bid_tocol_apply {α : Type} (v : S50000.Idx → α) (r : Fin 50000) (u : Fin 1) :
    broadcastInDim S50000x1 ![0] bcast_S50000_S50000x1_0 v (ix2 r u) = v (ix1 r) :=
  broadcastInDim_apply _ _ v (ix2 r u) (ix1 r) fun a => by
    match a with
    | ⟨0, _⟩ => show r.val = if (50000 : ℕ) = 1 then 0 else r.val; rw [if_neg (by decide)]

theorem bid_bias_apply {α : Type} (b : S128.Idx → α) (r : Fin 50000) (k : Fin 128) :
    broadcastInDim S50000x128 ![0, 1] bcast_S1x128_S50000x128_0_1 (broadcastInDim S1x128 ![1] bcast_S128_S1x128_1 b) (ix2 r k) = b (ix1 k) :=
  (broadcastInDim_apply _ _ _ (ix2 r k) (ix2 (0 : Fin 1) k) fun a => by
    match a with
    | ⟨0, _⟩ => show 0 = if (1 : ℕ) = 1 then 0 else r.val; rw [if_pos rfl]
    | ⟨1, _⟩ => show k.val = if (128 : ℕ) = 1 then 0 else k.val; rw [if_neg (by decide)]).trans
  (broadcastInDim_apply _ _ b (ix2 (0 : Fin 1) k) (ix1 k) fun a => by
    match a with
    | ⟨0, _⟩ => show k.val = if (128 : ℕ) = 1 then 0 else k.val; rw [if_neg (by decide)])

/-- The host's maximum over a row, from the `-∞` word. -/
theorem hostMax_apply (a : FVec Ideal S50000x128 .f32) (r : Fin 50000) :
    Host.reduce FloatOps.maximumf a (constant (F := Ideal) S_ .f32 0xFF800000#32) reducesTo_S50000x128_S50000_d1 h_S_ (ix1 r)
      = rowMax (fun k => a (ix2 r k)) := by
  have hR : S50000x128.Reduces [1] S50000 := by decide
  refine (Host.reduce_eq_fold_single FloatOps.maximumf a _ reducesTo_S50000x128_S50000_d1 hR h_S_ (ix1 r)).trans ?_
  have hf : (a ∘ hR.lift (ix1 r)) = fun k : Fin 128 => a (ix2 r k) :=
    funext fun k => congrArg a (funext fun ax => Fin.ext (by
      match ax with
      | ⟨0, _⟩ => rfl
      | ⟨1, _⟩ => rfl))
  rw [hf]
  rfl

/-- The host's sum over a row, started from zero. -/
theorem hostSum_apply (u : FVec Ideal S50000x128 .f32) (r : Fin 50000) :
    Host.reduceAdd u (constant (F := Ideal) S_ .f32 0x00000000#32) reducesTo_S50000x128_S50000_d1 h_S_ (ix1 r)
      = ∑ k : Fin 128, u (ix2 r k) := by
  simp only [Host.reduceAdd, Ideal.hostReduceAdd_def]
  rw [Ideal.hostReduceAdd_single reducesTo_S50000x128_S50000_d1 (by decide)]
  refine (congrArg (· + _) (show (constant (F := Ideal) S_ .f32 0x00000000#32) (Shape.Idx.first h_S_) = (0 : EReal) from Ideal.ofBits_zero_f32)).trans
    ((zero_add _).trans (Finset.sum_congr rfl fun k _ => congrArg u (funext fun ax => Fin.ext (by
      match ax with
      | ⟨0, _⟩ => rfl
      | ⟨1, _⟩ => rfl))))

/-- Joining the running maximum once more with the value it started from changes nothing. -/
theorem max_rowMax (z : Fin 128 → EReal) : max (Ideal.ofBits .f32 0xFF800000#32) (rowMax z) = rowMax z :=
  max_eq_right (Finset.le_fold_max (Ideal.ofBits .f32 0xFF800000#32) |>.mpr (Or.inl le_rfl))

/-- The running maximum joined with the spread `-∞` word, at row `r`: the row's maximum. -/
theorem joinMax_apply (a : FVec Ideal S50000x128 .f32) (r : Fin 50000) :
    (maximumf (broadcastInDim S50000 ![] bcast_S_S50000 (constant (F := Ideal) S_ .f32 0xFF800000#32))
      (Host.reduce FloatOps.maximumf a (constant (F := Ideal) S_ .f32 0xFF800000#32) reducesTo_S50000x128_S50000_d1 h_S_) : FVec Ideal S50000 .f32) (ix1 r)
      = rowMax (fun k => a (ix2 r k)) := by
  rw [maximumf_apply, hostMax_apply]
  have hc : (broadcastInDim S50000 ![] bcast_S_S50000 (constant (F := Ideal) S_ .f32 0xFF800000#32) : FVec Ideal S50000 .f32) (ix1 r)
      = Ideal.ofBits .f32 0xFF800000#32 :=
    (broadcastInDim_apply _ _ _ (ix1 r) ix0 (fun ax => ax.elim0)).trans (constant_apply _ _)
  rw [hc]
  exact max_rowMax _

/-- The host's exponential and logarithm of an array are taken entry by entry. -/
theorem hostExp_apply {s : Shape} (u : FVec Ideal s .f32) (i : s.Idx) : Host.exp u i = Ideal.exp (u i) := rfl
theorem hostLog_apply {s : Shape} (u : FVec Ideal s .f32) (i : s.Idx) : Host.log u i = Ideal.log (u i) := rfl

section HostLsm

variable {F : FTy → Type} [FloatOps F] (a : FVec F S50000x128 .f32)

/-- One number per row made a column, and a column spread over the 128 lanes. -/
abbrev toCol (v : FVec F S50000 .f32) : FVec F S50000x1 .f32 := broadcastInDim S50000x1 ![0] bcast_S50000_S50000x1_0 v
abbrev overLanes (v : FVec F S50000x1 .f32) : FVec F S50000x128 .f32 := broadcastInDim S50000x128 ![0, 1] bcast_S50000x1_S50000x128_0_1 v

/-- The rows' maxima, as the host computes them. -/
abbrev maxRow : FVec F S50000 .f32 :=
  maximumf (broadcastInDim S50000 ![] bcast_S_S50000 (constant (F := F) S_ .f32 0xFF800000#32))
    (Host.reduce FloatOps.maximumf a (constant (F := F) S_ .f32 0xFF800000#32) reducesTo_S50000x128_S50000_d1 h_S_)

abbrev maxSpread : FVec F S50000x128 .f32 := overLanes (toCol (maxRow a))

abbrev shifted : FVec F S50000x128 .f32 := subf a (maxSpread a)

/-- The shifted rows' sums of exponentials. -/
abbrev sumRow : FVec F S50000 .f32 :=
  Host.reduceAdd (Host.exp (shifted a)) (constant (F := F) S_ .f32 0x00000000#32) reducesTo_S50000x128_S50000_d1 h_S_

abbrev lseSpread : FVec F S50000x128 .f32 := overLanes (Host.log (toCol (sumRow a)))

/-- The host's log-softmax of an array. -/
abbrev hostLsm : FVec F S50000x128 .f32 := subf (shifted a) (lseSpread a)

/-- The reference's closing operations are that function of the biased aggregation. -/
theorem v47_eq (x0 : (⟨S50000x512, .f32⟩ : BufTy).Contents (Elt F)) (x1 : (⟨S2x800000, .i32⟩ : BufTy).Contents (Elt F))
    (x2 : (⟨S512x128, .f32⟩ : BufTy).Contents (Elt F)) (x3 : (⟨S128, .f32⟩ : BufTy).Contents (Elt F)) :
    val_main_v47 (F := F) x0 x1 x2 x3 = hostLsm (F := F) (val_main_v46 (F := F) x0 x1 x2 x3) := rfl

end HostLsm

section Closing

variable (a : FVec Ideal S50000x128 .f32)

theorem maxSpread_apply (r : Fin 50000) (k : Fin 128) : maxSpread a (ix2 r k) = rowMax (fun k => a (ix2 r k)) :=
  (bid_col_apply (toCol (maxRow a)) r k).trans ((bid_tocol_apply (maxRow a) r 0).trans (joinMax_apply a r))

theorem shifted_apply (r : Fin 50000) (k : Fin 128) : shifted a (ix2 r k) = a (ix2 r k) - rowMax (fun k => a (ix2 r k)) :=
  (subf_apply a (maxSpread a) (ix2 r k)).trans (congrArg (a (ix2 r k) - ·) (maxSpread_apply a r k))

theorem lseSpread_apply (r : Fin 50000) (q : Fin 128) :
    lseSpread a (ix2 r q) = Ideal.log (∑ k : Fin 128, Ideal.exp (a (ix2 r k) - rowMax (fun k => a (ix2 r k)))) :=
  (bid_col_apply (Host.log (toCol (sumRow a))) r q).trans ((hostLog_apply (toCol (sumRow a)) (ix2 r (0 : Fin 1))).trans
    (congrArg Ideal.log ((bid_tocol_apply (sumRow a) r 0).trans ((hostSum_apply (Host.exp (shifted a)) r).trans
      (Finset.sum_congr rfl fun k _ => (hostExp_apply (shifted a) (ix2 r k)).trans (congrArg Ideal.exp (shifted_apply a r k)))))))

theorem hostLsm_apply (r : Fin 50000) (q : Fin 128) : hostLsm a (ix2 r q) = lsm (fun k => a (ix2 r k)) q :=
  (subf_apply (shifted a) (lseSpread a) (ix2 r q)).trans
    (congrArg₂ (fun u v : EReal => u - v) (shifted_apply a r q) (lseSpread_apply a r q))

end Closing

/-! ## The reference's last value is the layer -/

/-- The biased aggregation at `(r, k)`: the aggregation of the product there plus the bias at `k`. -/
theorem v46_apply (x0 : FVec Ideal S50000x512 .f32) (x1 : (⟨S2x800000, .i32⟩ : BufTy).Contents (Elt Ideal))
    (x2 : FVec Ideal S512x128 .f32) (x3 : FVec Ideal S128 .f32) (r : Fin 50000) (k : Fin 128) :
    val_main_v46 (F := Ideal) x0 x1 x2 x3 (ix2 r k)
      = Cert.KernelIdeal.Spec.agg (F := Ideal) (Cert.KernelIdeal.Region0.prod x0 x2) x1 (ix2 r k) + x3 (ix1 k) := by
  rw [val_main_v46_apply, Ideal.addf_def, v43_eq, v30_eq]
  unfold val_main_v45 val_main_v44
  rw [bid_bias_apply]

theorem result_eq (x0 : FVec Ideal S50000x512 .f32) (x1 : (⟨S2x800000, .i32⟩ : BufTy).Contents (Elt Ideal))
    (x2 : FVec Ideal S512x128 .f32) (x3 : FVec Ideal S128 .f32) :
    val_main_v47 (F := Ideal) x0 x1 x2 x3 = Cert.KernelIdeal.Whole.layer x0 x1 x2 x3 := by
  funext i
  obtain ⟨r, q, rfl⟩ : ∃ (r : Fin 50000) (q : Fin 128), i = ix2 r q := ⟨i 0, i 1, eq_ix2 i⟩
  refine (congrFun (v47_eq (F := Ideal) x0 x1 x2 x3) (ix2 r q)).trans ((hostLsm_apply _ r q).trans ?_)
  unfold Cert.KernelIdeal.Whole.layer
  rw [lsmRows_apply]
  exact congrArg (fun z => lsm z q) (funext fun k => v46_apply x0 x1 x2 x3 r k)

end Cert.ReferenceIdeal.RefValue

end
-- ==== Proof.lean ====
/-
  A graph convolution layer with a log-softmax, as a Pallas program against its jnp reference.

  Both programs take node features `x` (50000 × 512), an edge list (2 × 800000 node numbers), weights `W` (512 × 128)
  and a bias `b` (128). With one self loop per node appended to the edges, `deg v` the number of edges into `v` and
  `dinv v = deg v ^ (-1/2)` (zero where the degree is not positive), the layer is

      out v = log_softmax ( ∑_{edges (s, d), d = v} (x · W) s · dinv s · dinv d  +  b ).

  The kernel program computes `x · W` in a first kernel region, ten blocks of 5000 rows, on operands rounded to a
  narrower format (the identity on exact numbers); gathers, scales and scatters on the host exactly as the reference
  does; and adds the bias and takes the row-wise log-softmax in a second kernel region, again ten blocks of 5000
  rows. The reference does the product, the same edge operations, the bias and `log_softmax` on the host.

  On the extended reals both results are one function of the four arguments (`Whole.layer`): a block product
  accumulated into zero and the host's product are the same sums over `k`; the edge operations are literally the
  same functions; and the two log-softmaxes agree row by row — the maximum folded from `-∞`, the row shifted, the
  sum of exponentials from zero, its logarithm subtracted — the reference's one extra join of the maximum with `-∞`
  changing nothing. No law of arithmetic beyond `0 + s = s` and `max c (fold max c z) = fold max c z` is needed, so
  the precondition (finite inputs) is never opened. The idealization rewrote no operation, so `preserves` is trivial.
-/
import proofs.«144927_j52501680226427_1_alg».proof.Defs
import proofs.«144927_j52501680226427_1_alg».proof.Proof.Gen.Kernel
import proofs.«144927_j52501680226427_1_alg».proof.Proof.Gen.Kernel.Frame
import proofs.«144927_j52501680226427_1_alg».proof.Proof.Gen.KernelIdeal
import proofs.«144927_j52501680226427_1_alg».proof.Proof.Gen.KernelIdeal.Frame
import proofs.«144927_j52501680226427_1_alg».proof.Proof.Gen.ReferenceIdeal
import proofs.«144927_j52501680226427_1_alg».proof.Proof.Gen.Pre_finite_inputs
import proofs.«144927_j52501680226427_1_alg».proof.Proof.KernelValue
import proofs.«144927_j52501680226427_1_alg».proof.Proof.RefRun
import proofs.«144927_j52501680226427_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both programs end at the layer of the arguments. -/
theorem algebraic : Cert.algebraic_KernelIdeal_ReferenceIdeal := by
  intro m ρ m' ρ' _ hagree
  refine ⟨fun c => Cert.KernelIdeal.Whole.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
